-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x32 .f32) (main_arg3 : FVec F S32 .f32) (main_arg4 : FVec F S32x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg4
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 81
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S3300000x1, .f32⟩
  | .hbm, ⟨40, _⟩ => ⟨S100000x32, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000x32, .f32⟩
  | .hbm, ⟨50, _⟩ => ⟨S3300000x32, .f32⟩
  | .hbm, ⟨51, _⟩ => ⟨S3300000x32, .f32⟩
  | .hbm, ⟨52, _⟩ => ⟨S_, .f32⟩
  | .hbm, ⟨53, _⟩ => ⟨S100000x32, .f32⟩
  | .hbm, ⟨54, _⟩ => ⟨S3300000x1, .i32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S100000x32, .f32⟩
  | .hbm, ⟨62, _⟩ => ⟨S100000x1, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x1, .f32⟩
  | .hbm, ⟨72, _⟩ => ⟨S3300000x1, .f32⟩
  | .hbm, ⟨73, _⟩ => ⟨S_, .f32⟩
  | .hbm, ⟨74, _⟩ => ⟨S100000x1, .f32⟩
  | .hbm, ⟨75, _⟩ => ⟨S3300000x1, .i32⟩
  | .hbm, ⟨76, _⟩ => ⟨S100000x1, .f32⟩
  | .hbm, ⟨77, _⟩ => ⟨S1x1, .f32⟩
  | .hbm, ⟨78, _⟩ => ⟨S100000x1, .f32⟩
  | .hbm, ⟨79, _⟩ => ⟨S100000x1, .f32⟩
  | .hbm, ⟨80, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S32x1, .f32⟩
  | .local _ .vmem, ⟨8, _⟩ => ⟨S10000x1, .f32⟩
  | .local _ .vmem, ⟨9, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  inb_S32x1_S32x1_0_0 : ∀ a, (![0, 0] : Fin 2 → Nat) a + S32x1.size a ≤ S32x1.size a
  h_S32x1 : 0 < S32x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x1_S10000x1_1_0_0_1_n_n_wf : DotDims.WF S10000x32 S32x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000x32 : Shape := ⟨2, ![100000, 32]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x32, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3300000, .i32⟩
  | .hbm, ⟨23, _⟩ => ⟨S3300000, .i1⟩
  | .hbm, ⟨24, _⟩ => ⟨S_, .i32⟩
  | .hbm, ⟨25, _⟩ => ⟨S3300000, .i32⟩
  | .hbm, ⟨26, _⟩ => ⟨S3300000, .i32⟩
  | .hbm, ⟨27, _⟩ => ⟨S3300000, .i32⟩
  | .hbm, ⟨28, _⟩ => ⟨S3300000x1, .i32⟩
  | .hbm, ⟨29, _⟩ => ⟨S3300000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x32, .f32⟩
  | .hbm, ⟨49, _⟩ => ⟨S3300000x1, .f32⟩
  | .hbm, ⟨50, _⟩ => ⟨S3300000x32, .f32⟩
  | .hbm, ⟨51, _⟩ => ⟨S3300000x32, .f32⟩
  | .hbm, ⟨52, _⟩ => ⟨S_, .f32⟩
  | .hbm, ⟨53, _⟩ => ⟨S100000x32, .f32⟩
  | .hbm, ⟨54, _⟩ => ⟨S3300000x1, .i32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S100000x32, .f32⟩
  | .hbm, ⟨62, _⟩ => ⟨S100000x1, .f32⟩
  | .hbm, ⟨63, _⟩ => ⟨S100000, .i32⟩
  | .hbm, ⟨64, _⟩ => ⟨S3300000, .i32⟩
  | .hbm, ⟨65, _⟩ => ⟨S3300000, .i32⟩
  | .hbm, ⟨66, _⟩ => ⟨S_, .f32⟩
  | .hbm, ⟨67, _⟩ => ⟨S3300000, .f32⟩
  | .hbm, ⟨68, _⟩ => ⟨S_, .f32⟩
  | .hbm, ⟨69, _⟩ => ⟨S100000, .f32⟩
  | .hbm, ⟨70, _⟩ => ⟨S3300000x1, .i32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000, .f32⟩
  | .hbm, ⟨82, _⟩ => ⟨S_, .i32⟩
  | .hbm, ⟨83, _⟩ => ⟨S3300000, .i32⟩
  | .hbm, ⟨84, _⟩ => ⟨S3300000, .i1⟩
  | .hbm, ⟨85, _⟩ => ⟨S_, .i32⟩
  | .hbm, ⟨86, _⟩ => ⟨S3300000, .i32⟩
  | .hbm, ⟨87, _⟩ => ⟨S3300000, .i32⟩
  | .hbm, ⟨88, _⟩ => ⟨S3300000, .i32⟩
  | .hbm, ⟨89, _⟩ => ⟨S3300000x1, .i32⟩
  | .hbm, ⟨90, _⟩ => ⟨S3300000, .f32⟩
  | .hbm, ⟨91, _⟩ => ⟨S3300000, .f32⟩
  | .hbm, ⟨92, _⟩ => ⟨S_, .i32⟩
  | .hbm, ⟨93, _⟩ => ⟨S3300000, .i32⟩
  | .hbm, ⟨94, _⟩ => ⟨S3300000, .i1⟩
  | .hbm, ⟨95, _⟩ => ⟨S_, .i32⟩
  | .hbm, ⟨96, _⟩ => ⟨S3300000, .i32⟩
  | .hbm, ⟨97, _⟩ => ⟨S3300000, .i32⟩
  | .hbm, ⟨98, _⟩ => ⟨S3300000, .i32⟩
  | .hbm, ⟨99, _⟩ => ⟨S3300000x1, .i32⟩
  | .hbm, ⟨100, _⟩ => ⟨S3300000x1, .f32⟩
  | .hbm, ⟨101, _⟩ => ⟨S3300000x1, .f32⟩
  | .hbm, ⟨102, _⟩ => ⟨S3300000x1, .f32⟩
  | .hbm, ⟨103, _⟩ => ⟨S_, .f32⟩
  | .hbm, ⟨104, _⟩ => ⟨S100000x1, .f32⟩
  | .hbm, ⟨105, _⟩ => ⟨S3300000x1, .i32⟩
  | .hbm, ⟨106, _⟩ => ⟨S100000x1, .f32⟩
  | .hbm, ⟨107, _⟩ => ⟨S1x1, .f32⟩
  | .hbm, ⟨108, _⟩ => ⟨S100000x1, .f32⟩
  | .hbm, ⟨109, _⟩ => ⟨S100000x1, .f32⟩
  | .hbm, ⟨110, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x32_S100000x32_1_0_0_1_n_n_wf : DotDims.WF S100000x128 S128x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x1_S100000x1_1_0_0_1_n_n_wf : DotDims.WF S100000x32 S32x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.Spec.lean ====
/-
  A two-layer graph convolution, as one chain of array operations on the host.

  The graph has 100000 nodes and 3200000 directed edges, given as a [2, 3200000] array of node
  numbers: row 0 the sources, row 1 the destinations. A self-loop is appended for every node, so the
  message list has 3300000 entries. The degree of a node counts the messages that arrive at it; a
  message from `s` to `d` carries the weight `deg(s)^(-1/2) * deg(d)^(-1/2)`. One layer takes node
  features that have ALREADY been multiplied by the layer's weight matrix, gathers the source row of
  every message, scales it by the message's weight, adds it into the destination row, and adds the
  bias. The first layer (32 features) is followed by `max(·, 0)`; the second (1 feature) by dropping
  the unit axis.

  Everything here is a function of the operands only: the weight-matrix product is NOT part of these
  definitions. Two programs that feed equal products into these chains get equal results, whatever
  the chains compute; nothing below is ever unfolded to compare them.
-/
import proofs.«174733_j28578712387808_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- The contents of a buffer of 32-bit integers of shape `s`. -/
abbrev IArr (F : FTy → Type) (s : Shape) := (⟨s, .i32⟩ : BufTy).Contents (Elt F)
/-- The contents of a buffer of f32 numbers of shape `s`. -/
abbrev FArr (F : FTy → Type) (s : Shape) := (⟨s, .f32⟩ : BufTy).Contents (Elt F)

/-- The source of every message: row 0 of the edge list, then every node once (its self-loop). -/
def src (e : IArr F S2x3200000) : IArr F S3300000 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destination of every message: row 1 of the edge list, then every node once. -/
def dst (e : IArr F S2x3200000) : IArr F S3300000 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A list of node numbers as a one-column index array. -/
def col (s : IArr F S3300000) : IArr F S3300000x1 :=
  broadcastInDim S3300000x1 ![0] bcast_S3300000_S3300000x1_0 s

/-- A list of node numbers as a one-column array of READ positions: a negative number counts from
    the end (`i < 0` reads at `i + 100000`). -/
def wrapCol (s : IArr F S3300000) : IArr F S3300000x1 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- The degree of every node: one unit added at the destination of every message. -/
def deg (e : IArr F S2x3200000) : FArr F S100000 :=
  Host.scatterAdd scatter_S100000_S3300000x1_S3300000_n_0_0_1
    (broadcastInDim S100000 ![] bcast_S_S100000 (constant S_ .f32 0x00000000#32))
    (col (dst e))
    (broadcastInDim S3300000 ![] bcast_S_S3300000 (constant S_ .f32 0x3F800000#32))

/-- The weight of every message: `deg(source)^(-1/2) * deg(destination)^(-1/2)`. -/
def norm (e : IArr F S2x3200000) : FArr F S3300000 :=
  mulf (Host.gather gather_S100000_S3300000x1_S3300000_n_0_n_n_0_1_1 (Host.rsqrt (deg e)) (wrapCol (src e)))
    (Host.gather gather_S100000_S3300000x1_S3300000_n_0_n_n_0_1_1 (Host.rsqrt (deg e)) (wrapCol (dst e)))

/-- The weights as a column. -/
def normCol (e : IArr F S2x3200000) : FArr F S3300000x1 :=
  broadcastInDim S3300000x1 ![0] bcast_S3300000_S3300000x1_0 (norm e)

/-- Message passing over 32 features, from the message list: for every message the row `xw[source]`, times the
    message's weight, added into row `destination`; then the bias on every row. `xw` is the node features already
    multiplied by the layer's weight matrix, `s` and `d` the messages' sources and destinations, `w` their weights
    as a column. -/
def pass32 (xw : FArr F S100000x32) (s d : IArr F S3300000) (w : FArr F S3300000x1) (b : FArr F S32) : FArr F S100000x32 :=
  addf
    (Host.scatterAdd scatter_S100000x32_S3300000x1_S3300000x32_1_0_0_1
      (broadcastInDim S100000x32 ![] bcast_S_S100000x32 (constant S_ .f32 0x00000000#32))
      (col d)
      (mulf (Host.gather gather_S100000x32_S3300000x1_S3300000x32_1_0_n_n_0_1_132 xw (wrapCol s))
        (broadcastInDim S3300000x32 ![0, 1] bcast_S3300000x1_S3300000x32_0_1 w)))
    (broadcastInDim S100000x32 ![0, 1] bcast_S1x32_S100000x32_0_1 (broadcastInDim S1x32 ![1] bcast_S32_S1x32_1 b))

/-- `max(·, 0)` on every entry. -/
def relu (y : FArr F S100000x32) : FArr F S100000x32 :=
  maximumf y (broadcastInDim S100000x32 ![] bcast_S_S100000x32 (constant S_ .f32 0x00000000#32))

/-- Message passing over one feature, from the message list, the unit axis dropped at the end. `hw` is the hidden
    features already multiplied by the second weight matrix. -/
def pass1 (hw : FArr F S100000x1) (s d : IArr F S3300000) (w : FArr F S3300000x1) (b : FArr F S1) : FArr F S100000 :=
  shapeCast _
    (addf
      (Host.scatterAdd scatter_S100000x1_S3300000x1_S3300000x1_1_0_0_1
        (broadcastInDim S100000x1 ![] bcast_S_S100000x1 (constant S_ .f32 0x00000000#32))
        (col d)
        (mulf (Host.gather gather_S100000x1_S3300000x1_S3300000x1_1_0_n_n_0_1_11 hw (wrapCol s)) w))
      (broadcastInDim S100000x1 ![0, 1] bcast_S1x1_S100000x1_0_1 (broadcastInDim S1x1 ![1] bcast_S1_S1x1_1 b)))
    shapeCasts_S100000x1_S100000

/-- The first layer after its weight product: message passing over the edge list's messages, then `max(·, 0)`. -/
def conv32 (xw : FArr F S100000x32) (e : IArr F S2x3200000) (b : FArr F S32) : FArr F S100000x32 :=
  relu (pass32 xw (src e) (dst e) (normCol e) b)

/-- The second layer after its weight product. -/
def conv1 (hw : FArr F S100000x1) (e : IArr F S2x3200000) (b : FArr F S1) : FArr F S100000 :=
  pass1 hw (src e) (dst e) (normCol e) b

end Cert.Gcn

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.XW.lean ====
/-
  The first layer's product, block by block.

  The accelerator computes `x · W₁` ([100000, 128] by [128, 32]) in ten steps: step `t` reads rows
  `10000 t … 10000 t + 9999` of `x` and all of `W₁`, rounds both to bf16, multiplies them into a
  zero accumulator and writes the [10000, 32] product back as rows `10000 t …` of the result. On the
  extended reals rounding to bf16 is the identity and a product into a zero accumulator is the plain
  sum `∑ k, x[r, k] * W₁[k, q]`; row `10000 t + p` of the whole product only involves row
  `10000 t + p` of `x`, so each step writes its ten thousand rows of the ONE whole product, and the
  ten steps cover all rows.
-/
import proofs.«174733_j28578712387808_1_alg».proof.Proof.Gen.KernelIdeal.Frame
import proofs.«174733_j28578712387808_1_alg».proof.Proof.LibDot2
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.XW

open Cert.KernelIdeal Cert.KernelIdeal.Gen Idealize.ShloMosaic Idealize.ShloMosaic.TcCoe Idealize.SL.Sem
open Idealize.ShloMosaic.ValueIdx
open Idealize.ShloMosaic.Pipeline (Dat)

/-- [100000, 128] by [128, 32], contracting the 128: well-formed dimension numbers. -/
theorem wfBig : DotDims.WF S100000x128 S128x32 S100000x32 [1] [0] [0] [1] [] [] := by decide

/-- The whole product `x · W₁`, as the host spells a matrix product. -/
abbrev prod (X : FVec Ideal S100000x128 .f32) (W : FVec Ideal S128x32 .f32) : FVec Ideal S100000x32 .f32 :=
  Host.dotGeneral (Dot2.mmDims 100000 128 32 wfBig) none X W

/-- One step's payload at `(p, q)`: the sum over `k` of the row block's `[p, k]` times the weights' `[k, q]`. -/
theorem pay_apply (x0 : Vec Ideal S10000x128 .f32) (x1 : Vec Ideal S128x32 .f32) (p : Fin 10000) (q : Fin 32) :
    k0_pay1 x0 x1 (ix2 p q) = ∑ k : Fin 128, x0 (ix2 p k) * x1 (ix2 k q) :=
  Dot2.matmul_zero_mm_apply Cert.KernelIdeal.Gen.dot_S10000x128_S128x32_S10000x32_1_0_0_1_n_n_wf none x0 x1 p q

/-- The whole product at `(r, q)`. -/
theorem prod_apply (X : FVec Ideal S100000x128 .f32) (W : FVec Ideal S128x32 .f32) (r : Fin 100000) (q : Fin 32) :
    prod X W (ix2 r q) = ∑ k : Fin 128, X (ix2 r k) * W (ix2 k q) :=
  Dot2.host_dotGeneral_mm_apply _ none X W r q

/-! ## The blocks of a step -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten steps: the rows' window and the result's window move one block of rows per step and
    stay at column block 0; the weights' window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Step `t`'s block of `x` at `(p, k)` is `x[10000 t + p, k]`. -/
theorem xblk_apply (c : Dev nD) (t : Fin cfg0.N) (y : S10000x128.Idx) (i : S100000x128.Idx)
    (h0 : (i 0).val = 10000 * t.val + (y 0).val) (h1 : (i 1).val = (y 1).val) :
    (iblk0 V c 0 t : Vec Ideal S10000x128 .f32) y = (V c main_arg0 : S100000x128.Idx → Elt Ideal .f32) i := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 10000 + 1 * (y 0).val = (i 0).val; rw [e0, h0]; omega
  | ⟨1, _⟩ => show win0_0.index t 1 * 128 + 1 * (y 1).val = (i 1).val; rw [e1, h1]; omega

/-- Every step's block of `W₁` is all of `W₁`. -/
theorem wblk_apply (c : Dev nD) (t : Fin cfg0.N) (y : S128x32.Idx) :
    (iblk0 V c 1 t : Vec Ideal S128x32 .f32) y = (V c main_arg2 : S128x32.Idx → Elt Ideal .f32) y := by
  obtain ⟨-, -, e0, e1, -, -⟩ := idx_facts t
  unfold iblk0
  rw [View.read_apply]
  show V c main_arg2 _ = V c main_arg2 _
  congr 1
  funext a
  apply Fin.ext
  match a with
  | ⟨0, _⟩ => show win0_1.index t 0 * 128 + 1 * (y 0).val = (y 0).val; rw [e0]; omega
  | ⟨1, _⟩ => show win0_1.index t 1 * 32 + 1 * (y 1).val = (y 1).val; rw [e1]; omega

/-- What step `t` writes back is rows `10000 t …` of the whole product of the arrays as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  obtain ⟨-, -, -, -, e0, e1⟩ := idx_facts t
  funext (j : S10000x32.Idx)
  obtain ⟨p, q, rfl⟩ : ∃ (p : Fin 10000) (q : Fin 32), j = ix2 p q := ⟨j 0, j 1, eq_ix2 j⟩
  have hr : 10000 * t.val + p.val < 100000 := by
    have := t.isLt; have hN : cfg0.N = 10 := N_0; have := p.isLt; omega
  have hemb : ((cfg0.win 2).blk t).view.emb (ix2 p q) = (ix2 (⟨10000 * t.val + p.val, hr⟩ : Fin 100000) q : S100000x32.Idx) := by
    funext a
    apply Fin.ext
    match a with
    | ⟨0, _⟩ => show win0_2.index t 0 * 10000 + 1 * p.val = 10000 * t.val + p.val; rw [e0]; omega
    | ⟨1, _⟩ => show win0_2.index t 1 * 32 + 1 * q.val = q.val; rw [e1]; omega
  show k0_pay1 (iblk0 V c 0 t) (iblk0 V c 1 t) (ix2 p q) = prod (V c main_arg0) (V c main_arg2) (((cfg0.win 2).blk t).view.emb (ix2 p q))
  rw [hemb]
  refine (pay_apply (iblk0 V c 0 t) (iblk0 V c 1 t) p q).trans ?_
  refine Eq.trans ?_ (prod_apply (V c main_arg0) (V c main_arg2) ⟨10000 * t.val + p.val, hr⟩ q).symm
  refine Finset.sum_congr rfl fun k _ => ?_
  rw [xblk_apply V c t (ix2 p k) (ix2 (⟨10000 * t.val + p.val, hr⟩ : Fin 100000) k) rfl rfl, wblk_apply V c t (ix2 k q)]

/-- An index of the result is in step `t`'s block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v28).slice (win0_2.rect t)).set ↔ _
  rw [View.set_slice_whole, Rect.mem_set_unit]
  exact Iff.rfl

/-- Every row of the result is written by the step its row number divided by 10000 names. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  let t : Fin cfg0.N := ⟨(i 0).val / 10000, by rw [hN]; omega⟩
  obtain ⟨-, -, -, -, e0, e1⟩ := idx_facts t
  have ht : t.val = (i 0).val / 10000 := rfl
  refine ⟨t, flush0_2 t, ?_⟩
  rw [mem_blk]
  intro a
  match a with
  | ⟨0, _⟩ => show win0_2.index t 0 * 10000 ≤ (i 0).val ∧ (i 0).val < win0_2.index t 0 * 10000 + 10000; rw [e0, ht]; omega
  | ⟨1, _⟩ => show win0_2.index t 1 * 32 ≤ (i 1).val ∧ (i 1).val < win0_2.index t 1 * 32 + 32; rw [e1]; omega

/-- After the ten steps the result array holds the whole product of the two arrays as the region found them. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.XW

end
-- ==== Proof.HW.lean ====
/-
  The second layer's product, block by block.

  The accelerator computes `h · W₂` ([100000, 32] by [32, 1]) in ten steps: step `t` reads rows
  `10000 t … 10000 t + 9999` of the hidden layer `h` and all of `W₂`, rounds both to bf16, multiplies
  them into a zero accumulator and writes the [10000, 1] product back as rows `10000 t …` of the
  result. On the extended reals rounding to bf16 is the identity and a product into a zero accumulator
  is the plain sum `∑ k, h[r, k] * W₂[k, 0]`; row `10000 t + p` of the whole product only involves row
  `10000 t + p` of `h`, so each step writes its ten thousand rows of the ONE whole product, and the ten
  steps cover all rows.
-/
import proofs.«174733_j28578712387808_1_alg».proof.Proof.Gen.KernelIdeal.Frame
import proofs.«174733_j28578712387808_1_alg».proof.Proof.LibDot2
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HW

open Cert.KernelIdeal Cert.KernelIdeal.Gen Idealize.ShloMosaic Idealize.ShloMosaic.TcCoe Idealize.SL.Sem
open Idealize.ShloMosaic.ValueIdx
open Idealize.ShloMosaic.Pipeline (Dat)

/-- [100000, 32] by [32, 1], contracting the 32: well-formed dimension numbers. -/
theorem wfBig : DotDims.WF S100000x32 S32x1 S100000x1 [1] [0] [0] [1] [] [] := by decide

/-- The whole product `h · W₂`, as the host spells a matrix product. -/
abbrev prod (H : FVec Ideal S100000x32 .f32) (W : FVec Ideal S32x1 .f32) : FVec Ideal S100000x1 .f32 :=
  Host.dotGeneral (Dot2.mmDims 100000 32 1 wfBig) none H W

/-- One step's payload at `(p, q)`: the sum over `k` of the row block's `[p, k]` times the weights' `[k, q]`
    (the body's reshape is to the same shape: the identity). -/
theorem pay_apply (x0 : Vec Ideal S10000x32 .f32) (x1 : Vec Ideal S32x1 .f32) (p : Fin 10000) (q : Fin 1) :
    k1_pay1 x0 x1 (ix2 p q) = ∑ k : Fin 32, x0 (ix2 p k) * x1 (ix2 k q) := by
  unfold k1_pay1
  simp only [shapeCast_self]
  exact Dot2.matmul_zero_mm_apply Cert.KernelIdeal.Gen.dot_S10000x32_S32x1_S10000x1_1_0_0_1_n_n_wf none x0 x1 p q

/-- The whole product at `(r, q)`. -/
theorem prod_apply (H : FVec Ideal S100000x32 .f32) (W : FVec Ideal S32x1 .f32) (r : Fin 100000) (q : Fin 1) :
    prod H W (ix2 r q) = ∑ k : Fin 32, H (ix2 r k) * W (ix2 k q) :=
  Dot2.host_dotGeneral_mm_apply _ none H W r q

/-! ## The blocks of a step -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten steps: the rows' window and the result's window move one block of rows per step and
    stay at column block 0; the weights' window stays at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Step `t`'s block of `h` at `(p, k)` is `h[10000 t + p, k]`. -/
theorem hblk_apply (c : Dev nD) (t : Fin cfg1.N) (y : S10000x32.Idx) (i : S100000x32.Idx)
    (h0 : (i 0).val = 10000 * t.val + (y 0).val) (h1 : (i 1).val = (y 1).val) :
    (iblk1 V c 0 t : Vec Ideal S10000x32 .f32) y = (V c main_v44 : S100000x32.Idx → Elt Ideal .f32) i := by
  obtain ⟨e0, e1, -, -, -, -⟩ := idx_facts t
  unfold iblk1
  rw [View.read_apply]
  show V c main_v44 _ = V c main_v44 _
  congr 1
  funext a
  apply Fin.ext
  match a with
  | ⟨0, _⟩ => show win1_0.index t 0 * 10000 + 1 * (y 0).val = (i 0).val; rw [e0, h0]; omega
  | ⟨1, _⟩ => show win1_0.index t 1 * 32 + 1 * (y 1).val = (i 1).val; rw [e1, h1]; omega

/-- Every step's block of `W₂` is all of `W₂`. -/
theorem wblk_apply (c : Dev nD) (t : Fin cfg1.N) (y : S32x1.Idx) :
    (iblk1 V c 1 t : Vec Ideal S32x1 .f32) y = (V c main_arg4 : S32x1.Idx → Elt Ideal .f32) y := by
  obtain ⟨-, -, e0, e1, -, -⟩ := idx_facts t
  unfold iblk1
  rw [View.read_apply]
  show V c main_arg4 _ = V c main_arg4 _
  congr 1
  funext a
  apply Fin.ext
  match a with
  | ⟨0, _⟩ => show win1_1.index t 0 * 32 + 1 * (y 0).val = (y 0).val; rw [e0]; omega
  | ⟨1, _⟩ => show win1_1.index t 1 * 1 + 1 * (y 1).val = (y 1).val; rw [e1]; omega

/-- What step `t` writes back is rows `10000 t …` of the whole product of the arrays as the region finds them. -/
theorem flushed_eq (c : Dev nD) (t : Fin cfg1.N) :
    (dat1 V c).flushed 2 t = ((cfg1.win 2).blk t).view.read (Elt Ideal) (prod (V c main_v44) (V c main_arg4)) := by
  show (cfg1.win 2).cut (grid1.coords t) ((dat1 V c).after 2 t) = _
  rw [after1_2]
  unfold out1_2
  rw [View.canon_unit_zero hz]
  simp only [View.ld_unit_zero (S := S10000x32) hz, View.ld_unit_zero (S := S32x1) hz]
  obtain ⟨-, -, -, -, e0, e1⟩ := idx_facts t
  funext (j : S10000x1.Idx)
  obtain ⟨p, q, rfl⟩ : ∃ (p : Fin 10000) (q : Fin 1), j = ix2 p q := ⟨j 0, j 1, eq_ix2 j⟩
  have hr : 10000 * t.val + p.val < 100000 := by
    have := t.isLt; have hN : cfg1.N = 10 := N_1; have := p.isLt; omega
  have hemb : ((cfg1.win 2).blk t).view.emb (ix2 p q) = (ix2 (⟨10000 * t.val + p.val, hr⟩ : Fin 100000) q : S100000x1.Idx) := by
    funext a
    apply Fin.ext
    match a with
    | ⟨0, _⟩ => show win1_2.index t 0 * 10000 + 1 * p.val = 10000 * t.val + p.val; rw [e0]; omega
    | ⟨1, _⟩ => show win1_2.index t 1 * 1 + 1 * q.val = q.val; rw [e1]; omega
  show k1_pay1 (iblk1 V c 0 t) (iblk1 V c 1 t) (ix2 p q) = prod (V c main_v44) (V c main_arg4) (((cfg1.win 2).blk t).view.emb (ix2 p q))
  rw [hemb]
  refine (pay_apply (iblk1 V c 0 t) (iblk1 V c 1 t) p q).trans ?_
  refine Eq.trans ?_ (prod_apply (V c main_v44) (V c main_arg4) ⟨10000 * t.val + p.val, hr⟩ q).symm
  refine Finset.sum_congr rfl fun k _ => ?_
  rw [hblk_apply V c t (ix2 p k) (ix2 (⟨10000 * t.val + p.val, hr⟩ : Fin 100000) k) rfl rfl, wblk_apply V c t (ix2 k q)]

/-- An index of the result is in step `t`'s block iff each coordinate is in the block's range on its axis. -/
theorem mem_blk (t : Fin cfg1.N) (i : S100000x1.Idx) :
    i ∈ ((cfg1.win 2).blk t).view.set ↔ ∀ a : Fin 2, win1_2.index t a * S10000x1.size a ≤ (i a).val ∧ (i a).val < win1_2.index t a * S10000x1.size a + S10000x1.size a := by
  show i ∈ ((View.whole main_v45).slice (win1_2.rect t)).set ↔ _
  rw [View.set_slice_whole, Rect.mem_set_unit]
  exact Iff.rfl

/-- Every row of the result is written by the step its row number divided by 10000 names. -/
theorem cover (i : S100000x1.Idx) : ∃ t : Fin cfg1.N, (cfg1.win 2).flush t = true ∧ i ∈ ((cfg1.win 2).blk t).view.set := by
  have hi0 : (i 0).val < 100000 := (i 0).isLt
  have hi1 : (i 1).val < 1 := (i 1).isLt
  have hN : cfg1.N = 10 := N_1
  let t : Fin cfg1.N := ⟨(i 0).val / 10000, by rw [hN]; omega⟩
  obtain ⟨-, -, -, -, e0, e1⟩ := idx_facts t
  have ht : t.val = (i 0).val / 10000 := rfl
  refine ⟨t, flush1_2 t, ?_⟩
  rw [mem_blk]
  intro a
  match a with
  | ⟨0, _⟩ => show win1_2.index t 0 * 10000 ≤ (i 0).val ∧ (i 0).val < win1_2.index t 0 * 10000 + 10000; rw [e0, ht]; omega
  | ⟨1, _⟩ => show win1_2.index t 1 * 1 ≤ (i 1).val ∧ (i 1).val < win1_2.index t 1 * 1 + 1; rw [e1]; omega

/-- After the ten steps the result array holds the whole product of the two arrays as the region found them. -/
theorem final (c : Dev nD) : (dat1 V c).arrAt 2 cfg1.N = prod (V c main_v44) (V c main_arg4) :=
  (dat1 V c).arrAt_eq_of_cover 2 (prod (V c main_v44) (V c main_arg4)) (fun t _ => flushed_eq V c t) cover

end Cert.KernelIdeal.HW

end
-- ==== Proof.KHost.lean ====
/-
  The accelerator program's two results, read as the graph convolution chain of Spec.lean.

  The program computes, on the host, the message list and the message weights from the edge list
  ONCE; runs the first product `x · W₁` on the accelerator; on the host again gathers, scales and
  scatter-adds over 32 features, adds the bias and takes `max(·, 0)` — the hidden layer, its first
  result; runs the second product `hidden · W₂` on the accelerator; and on the host runs the same
  message passing over one feature with the weights it already has — the scores, its second result.
  Here every boundary's contents is read back: each host stretch is the chain's function of what the
  stretch finds, a buffer no step writes is what it was, and each accelerator region leaves the whole
  product (XW.lean, HW.lean) in its result array and everything else alone.
-/
import proofs.«174733_j28578712387808_1_alg».proof.Proof.Gen.KernelIdeal.Frame
import proofs.«174733_j28578712387808_1_alg».proof.Proof.Spec
import proofs.«174733_j28578712387808_1_alg».proof.Proof.XW
import proofs.«174733_j28578712387808_1_alg».proof.Proof.HW
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

/-! ## Each host stretch, from any contents `W` -/

section Stretches

variable {F : FTy → Type} [FloatOps F] (W : Valuation τ sig (Elt F))

/-- The first stretch leaves the messages' sources, -/
theorem first_src : after hostOps0 W (Proc.devRef .tc main_v5) = Gcn.src (W (Proc.devRef .tc main_arg1)) := by
  dsimp only [hostOps0]; after_results; rfl
/-- their destinations, -/
theorem first_dst : after hostOps0 W (Proc.devRef .tc main_v6) = Gcn.dst (W (Proc.devRef .tc main_arg1)) := by
  dsimp only [hostOps0]; after_results; rfl
set_option maxHeartbeats 4000000 in
/-- and their weights as a column, all from the edge list. -/
theorem first_norm : after hostOps0 W (Proc.devRef .tc main_v27) = Gcn.normCol (W (Proc.devRef .tc main_arg1)) := by
  dsimp only [hostOps0]; after_results_simp
  unfold Gcn.normCol Gcn.norm Gcn.deg Gcn.wrapCol Gcn.col Gcn.src Gcn.dst
  rfl

/-- It writes none of the other arguments. -/
theorem first_keeps_arg0 : after hostOps0 W (Proc.devRef .tc main_arg0) = W (Proc.devRef .tc main_arg0) := by
  dsimp only [hostOps0]; after_results
theorem first_keeps_arg2 : after hostOps0 W (Proc.devRef .tc main_arg2) = W (Proc.devRef .tc main_arg2) := by
  dsimp only [hostOps0]; after_results
theorem first_keeps_arg3 : after hostOps0 W (Proc.devRef .tc main_arg3) = W (Proc.devRef .tc main_arg3) := by
  dsimp only [hostOps0]; after_results
theorem first_keeps_arg4 : after hostOps0 W (Proc.devRef .tc main_arg4) = W (Proc.devRef .tc main_arg4) := by
  dsimp only [hostOps0]; after_results
theorem first_keeps_arg5 : after hostOps0 W (Proc.devRef .tc main_arg5) = W (Proc.devRef .tc main_arg5) := by
  dsimp only [hostOps0]; after_results

set_option maxHeartbeats 4000000 in
/-- The middle stretches (message passing over 32 features, then `max(·, 0)`) leave the hidden layer: the chain's
    function of the first product, the message list, the weights and the first bias as they find them. -/
theorem middle_hidden : after hostOps1_1 (after hostOps1 W) (Proc.devRef .tc main_v44)
    = Gcn.relu (Gcn.pass32 (W (Proc.devRef .tc main_v28)) (W (Proc.devRef .tc main_v5)) (W (Proc.devRef .tc main_v6))
        (W (Proc.devRef .tc main_v27)) (W (Proc.devRef .tc main_arg3))) := by
  dsimp only [hostOps1, hostOps1_1]; after_results_simp
  unfold Gcn.relu Gcn.pass32 Gcn.wrapCol Gcn.col
  rfl

/-- They write none of what the last stretch still reads. -/
theorem middle_keeps_v5 : after hostOps1_1 (after hostOps1 W) (Proc.devRef .tc main_v5) = W (Proc.devRef .tc main_v5) := by
  dsimp only [hostOps1, hostOps1_1]; after_results
theorem middle_keeps_v6 : after hostOps1_1 (after hostOps1 W) (Proc.devRef .tc main_v6) = W (Proc.devRef .tc main_v6) := by
  dsimp only [hostOps1, hostOps1_1]; after_results
theorem middle_keeps_v27 : after hostOps1_1 (after hostOps1 W) (Proc.devRef .tc main_v27) = W (Proc.devRef .tc main_v27) := by
  dsimp only [hostOps1, hostOps1_1]; after_results
theorem middle_keeps_arg4 : after hostOps1_1 (after hostOps1 W) (Proc.devRef .tc main_arg4) = W (Proc.devRef .tc main_arg4) := by
  dsimp only [hostOps1, hostOps1_1]; after_results
theorem middle_keeps_arg5 : after hostOps1_1 (after hostOps1 W) (Proc.devRef .tc main_arg5) = W (Proc.devRef .tc main_arg5) := by
  dsimp only [hostOps1, hostOps1_1]; after_results

set_option maxHeartbeats 4000000 in
/-- The last stretch (message passing over one feature) leaves the scores: the chain's function of the second
    product, the message list, the weights and the second bias as it finds them. -/
theorem last_scores : after hostOps2 W (Proc.devRef .tc main_v60)
    = Gcn.pass1 (W (Proc.devRef .tc main_v45)) (W (Proc.devRef .tc main_v5)) (W (Proc.devRef .tc main_v6))
        (W (Proc.devRef .tc main_v27)) (W (Proc.devRef .tc main_arg5)) := by
  dsimp only [hostOps2]; after_results_simp
  unfold Gcn.pass1 Gcn.wrapCol Gcn.col
  rfl

/-- It does not write the hidden layer. -/
theorem last_keeps_v44 : after hostOps2 W (Proc.devRef .tc main_v44) = W (Proc.devRef .tc main_v44) := by
  dsimp only [hostOps2]; after_results

end Stretches

/-! ## The boundaries, one after the other, on the extended reals -/

variable (m : (ℓ : Loc nD τ sig) → Buf (Elt Ideal) ℓ) (ρ : Dev nD → PrngReg)

/-- The hidden layer as a function of the launch memory: the chain of the whole first product. -/
abbrev hidden (c : Dev nD) : Gcn.FArr Ideal ReferenceIdeal.S100000x32 :=
  Gcn.conv32 (XW.prod (m ((c.tc : Thread nD τ).loc main_arg0)) (m ((c.tc : Thread nD τ).loc main_arg2)))
    (m ((c.tc : Thread nD τ).loc main_arg1)) (m ((c.tc : Thread nD τ).loc main_arg3))

/-- The scores as a function of the launch memory: the chain of the whole second product of the hidden layer. -/
abbrev scores (c : Dev nD) : Gcn.FArr Ideal ReferenceIdeal.S100000 :=
  Gcn.conv1 (HW.prod (hidden m c) (m ((c.tc : Thread nD τ).loc main_arg4)))
    (m ((c.tc : Thread nD τ).loc main_arg1)) (m ((c.tc : Thread nD τ).loc main_arg5))

/-- When the first product starts its operands are the launch arrays, -/
theorem entry0_x (c : Dev nD) : V1 m ρ c main_arg0 = m ((c.tc : Thread nD τ).loc main_arg0) := first_keeps_arg0 _
theorem entry0_w (c : Dev nD) : V1 m ρ c main_arg2 = m ((c.tc : Thread nD τ).loc main_arg2) := first_keeps_arg2 _

/-- so it leaves the whole product `x · W₁` in its result array. -/
theorem after0_prod (c : Dev nD) : W2 m ρ c (Proc.devRef .tc main_v28)
    = XW.prod (m ((c.tc : Thread nD τ).loc main_arg0)) (m ((c.tc : Thread nD τ).loc main_arg2)) := by
  rw [← entry0_x m ρ c, ← entry0_w m ρ c]
  exact (W2_arr m ρ c 2).trans (XW.final (V1 m ρ) c)

/-- What the second product starts from: the hidden layer of the launch memory, -/
theorem entry1_hidden (c : Dev nD) : W4 m ρ c (Proc.devRef .tc main_v44) = hidden m c := by
  show after hostOps1_1 (after hostOps1 (W2 m ρ c)) (Proc.devRef .tc main_v44) = _
  rw [middle_hidden, after0_prod, W2_of_ne m ρ c main_v5 (by decide), W2_of_ne m ρ c main_v6 (by decide),
    W2_of_ne m ρ c main_v27 (by decide), W2_of_ne m ρ c main_arg3 (by decide)]
  show Gcn.relu (Gcn.pass32 _ (after hostOps0 (W0 m ρ c) (Proc.devRef .tc main_v5)) (after hostOps0 (W0 m ρ c) (Proc.devRef .tc main_v6))
    (after hostOps0 (W0 m ρ c) (Proc.devRef .tc main_v27)) (after hostOps0 (W0 m ρ c) (Proc.devRef .tc main_arg3))) = _
  rw [first_src, first_dst, first_norm, first_keeps_arg3]
  rfl

/-- and the second weight matrix as launched. -/
theorem entry1_w (c : Dev nD) : W4 m ρ c (Proc.devRef .tc main_arg4) = m ((c.tc : Thread nD τ).loc main_arg4) := by
  show after hostOps1_1 (after hostOps1 (W2 m ρ c)) (Proc.devRef .tc main_arg4) = _
  rw [middle_keeps_arg4, W2_of_ne m ρ c main_arg4 (by decide)]
  exact first_keeps_arg4 _

/-- So it leaves the whole product `hidden · W₂` in its result array, -/
theorem after1_prod (c : Dev nD) : W5 m ρ c (Proc.devRef .tc main_v45)
    = HW.prod (hidden m c) (m ((c.tc : Thread nD τ).loc main_arg4)) := by
  rw [← entry1_hidden m ρ c, ← entry1_w m ρ c]
  exact (W5_arr m ρ c 2).trans (HW.final (V4 m ρ) c)

/-- and the hidden layer, which it only reads, as it was. -/
theorem after1_hidden (c : Dev nD) : W5 m ρ c (Proc.devRef .tc main_v44) = hidden m c :=
  ((W5_arr m ρ c 0).trans (((dat1 (V4 m ρ) c).arrAt_in 0 rfl _).trans (A_eq1 (V4 m ρ) c 0))).trans (entry1_hidden m ρ c)

/-- The message list, the weights and the second bias reach the last stretch as the first stretch left them. -/
theorem late_src (c : Dev nD) : W5 m ρ c (Proc.devRef .tc main_v5) = Gcn.src (m ((c.tc : Thread nD τ).loc main_arg1)) := by
  rw [W5_of_ne m ρ c main_v5 (by decide)]
  show after hostOps1_1 (after hostOps1 (W2 m ρ c)) (Proc.devRef .tc main_v5) = _
  rw [middle_keeps_v5, W2_of_ne m ρ c main_v5 (by decide)]
  exact first_src _
theorem late_dst (c : Dev nD) : W5 m ρ c (Proc.devRef .tc main_v6) = Gcn.dst (m ((c.tc : Thread nD τ).loc main_arg1)) := by
  rw [W5_of_ne m ρ c main_v6 (by decide)]
  show after hostOps1_1 (after hostOps1 (W2 m ρ c)) (Proc.devRef .tc main_v6) = _
  rw [middle_keeps_v6, W2_of_ne m ρ c main_v6 (by decide)]
  exact first_dst _
theorem late_norm (c : Dev nD) : W5 m ρ c (Proc.devRef .tc main_v27) = Gcn.normCol (m ((c.tc : Thread nD τ).loc main_arg1)) := by
  rw [W5_of_ne m ρ c main_v27 (by decide)]
  show after hostOps1_1 (after hostOps1 (W2 m ρ c)) (Proc.devRef .tc main_v27) = _
  rw [middle_keeps_v27, W2_of_ne m ρ c main_v27 (by decide)]
  exact first_norm _
theorem late_bias (c : Dev nD) : W5 m ρ c (Proc.devRef .tc main_arg5) = m ((c.tc : Thread nD τ).loc main_arg5) := by
  rw [W5_of_ne m ρ c main_arg5 (by decide)]
  show after hostOps1_1 (after hostOps1 (W2 m ρ c)) (Proc.devRef .tc main_arg5) = _
  rw [middle_keeps_arg5, W2_of_ne m ρ c main_arg5 (by decide)]
  exact first_keeps_arg5 _

/-- THE FIRST RESULT: after the last stretch the hidden layer's buffer holds `hidden` of the launch memory. -/
theorem result_hidden (c : Dev nD) : W6 m ρ c (Proc.devRef .tc main_v44) = hidden m c :=
  (last_keeps_v44 _).trans (after1_hidden m ρ c)

/-- THE SECOND RESULT: the scores' buffer holds `scores` of the launch memory. -/
theorem result_scores (c : Dev nD) : W6 m ρ c (Proc.devRef .tc main_v60) = scores m c := by
  show after hostOps2 (W5 m ρ c) (Proc.devRef .tc main_v60) = _
  rw [last_scores, after1_prod, late_src, late_dst, late_norm, late_bias]
  rfl

end Cert.KernelIdeal.Chain

end
-- ==== Proof.RefSide.lean ====
/-
  The reference program's two results, read as the graph convolution chain of Spec.lean.

  The reference multiplies the node features by the first weight matrix on the host, runs the
  32-feature message passing and `max(·, 0)`; that is its first result, the hidden layer. It then
  multiplies the hidden layer by the second weight matrix and runs the one-feature message passing;
  that is its second result, the scores. It recomputes the degrees and the message weights for the
  second layer, from the same edge list: the same function of the same array.
-/
import proofs.«174733_j28578712387808_1_alg».proof.Proof.Gen.ReferenceIdeal.Run
import proofs.«174733_j28578712387808_1_alg».proof.Proof.Spec

noncomputable section

namespace Cert.ReferenceIdeal.RefValue

open Cert.ReferenceIdeal Cert.ReferenceIdeal.Gen Cert.ReferenceIdeal.Value Idealize.ShloMosaic Idealize.ShloMosaic.TcCoe Idealize.SL.Sem

variable {F : FTy → Type} [FloatOps F]

/-- The hidden layer as a function of the argument arrays: the 32-feature message passing of `x · W₁`, then `max(·, 0)`. -/
def hidden (x : Gcn.FArr F S100000x128) (e : Gcn.IArr F S2x3200000) (w1 : Gcn.FArr F S128x32) (b1 : Gcn.FArr F S32) : Gcn.FArr F S100000x32 :=
  Gcn.conv32 (Host.dotGeneral dot_S100000x128_S128x32_S100000x32_1_0_0_1_n_n none x w1) e b1

/-- The scores as a function of the hidden layer: the one-feature message passing of `hidden · W₂`. -/
def scores (h : Gcn.FArr F S100000x32) (e : Gcn.IArr F S2x3200000) (w2 : Gcn.FArr F S32x1) (b2 : Gcn.FArr F S1) : Gcn.FArr F S100000 :=
  Gcn.conv1 (Host.dotGeneral dot_S100000x32_S32x1_S100000x1_1_0_0_1_n_n none h w2) e b2

/-- The reference's first result is `hidden` of its arguments: the same operations in the same order. -/
theorem hidden_eq (m : (ℓ : Loc nD τ sig) → Buf (Elt F) ℓ) (c : Dev nD) :
    res_main_v44 m c = hidden (m ((c.tc : Thread nD τ).loc main_arg0)) (m ((c.tc : Thread nD τ).loc main_arg1))
      (m ((c.tc : Thread nD τ).loc main_arg2)) (m ((c.tc : Thread nD τ).loc main_arg3)) := by
  unfold res_main_v44 hidden Gcn.conv32 Gcn.relu Gcn.pass32 Gcn.normCol Gcn.norm Gcn.deg Gcn.wrapCol Gcn.col Gcn.src Gcn.dst
  rfl

/-- The reference's second result is `scores` of its first result and its arguments: the degrees and the
    weights it computes again are the same terms of the same edge list. -/
theorem scores_eq (m : (ℓ : Loc nD τ sig) → Buf (Elt F) ℓ) (c : Dev nD) :
    res_main_v84 m c = scores (res_main_v44 m c) (m ((c.tc : Thread nD τ).loc main_arg1))
      (m ((c.tc : Thread nD τ).loc main_arg4)) (m ((c.tc : Thread nD τ).loc main_arg5)) := by
  unfold res_main_v84 res_main_v44 scores Gcn.conv1 Gcn.pass1 Gcn.normCol Gcn.norm Gcn.deg Gcn.wrapCol Gcn.col Gcn.src Gcn.dst
  rfl

end Cert.ReferenceIdeal.RefValue

end
-- ==== Proof.lean ====
/-
  A two-layer graph convolution on 100000 nodes and 3200000 edges: the accelerator program against
  the plain array program, over the extended reals.

  Both programs compute, for each layer, `out = A · (features · W) + b`, where `A` is the graph's
  adjacency with self-loops, normalised by `deg^(-1/2)` on both sides and applied as gather, scale,
  scatter-add over the list of messages. They differ in two places only. The accelerator program
  runs the two dense products `x · W₁` and `hidden · W₂` as kernels over ten row blocks, in bf16 into a
  zero accumulator, where the array program writes one matrix product each: over the extended reals
  rounding is the identity and a row of a product depends on that row of the left factor only, so the
  ten blocks are the whole product (XW.lean, HW.lean). And the accelerator program computes the
  degrees and the message weights once where the array program computes them per layer: the same
  function of the same edge list. Everything else — the gathers, the scatter-adds, the bias, the
  `max(·, 0)` — is the same chain of host operations applied to equal operands, and is carried as
  the functions of Spec.lean without ever being opened. No law of arithmetic is used beyond
  "a product into zero is the product", so nothing here needs the inputs to be finite.

  The three frames: the two accelerator programs' are the generated frame certificates; the array
  program's is its generated run with the results dropped. The idealisation rewrote nothing, so
  `preserves` is trivial.
-/
import proofs.«174733_j28578712387808_1_alg».proof.Defs
import proofs.«174733_j28578712387808_1_alg».proof.Proof.Gen.Kernel
import proofs.«174733_j28578712387808_1_alg».proof.Proof.Gen.Kernel.Frame
import proofs.«174733_j28578712387808_1_alg».proof.Proof.Gen.KernelIdeal
import proofs.«174733_j28578712387808_1_alg».proof.Proof.Gen.KernelIdeal.Frame
import proofs.«174733_j28578712387808_1_alg».proof.Proof.Gen.ReferenceIdeal
import proofs.«174733_j28578712387808_1_alg».proof.Proof.Gen.ReferenceIdeal.Run
import proofs.«174733_j28578712387808_1_alg».proof.Proof.Gen.Pre_finite_inputs
import proofs.«174733_j28578712387808_1_alg».proof.Proof.KRun
import proofs.«174733_j28578712387808_1_alg».proof.Proof.KHost
import proofs.«174733_j28578712387808_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The array program's first product has the dimension numbers of the plain matrix product. -/
theorem dims_xw : Cert.ReferenceIdeal.dot_S100000x128_S128x32_S100000x32_1_0_0_1_n_n
    = Dot2.mmDims 100000 128 32 Cert.KernelIdeal.XW.wfBig := rfl

/-- So has its second. -/
theorem dims_hw : Cert.ReferenceIdeal.dot_S100000x32_S32x1_S100000x1_1_0_0_1_n_n
    = Dot2.mmDims 100000 32 1 Cert.KernelIdeal.HW.wfBig := rfl

/-- Both programs end with the hidden layer and the scores at the SAME functions of arguments that agree: the
    accelerator program's run read at its last boundary, the array program's generated run read as the chain. -/
theorem algebraic : Cert.algebraic_KernelIdeal_ReferenceIdeal := by
  intro m ρ m' ρ' _ hagree
  refine ⟨fun c => Cert.KernelIdeal.Chain.hidden m c, fun c => Cert.KernelIdeal.Chain.scores m c, ?_, ?_⟩
  · exact (θ_run Cert.KernelIdeal.defs _ _).mono
      (fun _ h c => ⟨(h c).1.trans (Cert.KernelIdeal.Chain.result_hidden m ρ c),
        (h c).2.1.trans (Cert.KernelIdeal.Chain.result_scores m ρ c), (h c).2.2⟩)
      (Cert.KernelIdeal.Gen.run_results (F := Ideal) m ρ)
  · refine (θ_run Cert.ReferenceIdeal.defs _ _).mono (fun _ h c => ?_) (Cert.ReferenceIdeal.Value.run (F := Ideal) m' ρ')
    obtain ⟨e0, e1, e2, e3, e4, e5⟩ := hagree c
    have hh : Cert.ReferenceIdeal.Value.res_main_v44 m' c = Cert.KernelIdeal.Chain.hidden m c := by
      rw [Cert.ReferenceIdeal.RefValue.hidden_eq, e0, e1, e2, e3]
      unfold Cert.ReferenceIdeal.RefValue.hidden
      rw [dims_xw]
    refine ⟨(h c).1.trans hh, (h c).2.1.trans ?_, (h c).2.2⟩
    rw [Cert.ReferenceIdeal.RefValue.scores_eq, hh, e1, e4, e5]
    unfold Cert.ReferenceIdeal.RefValue.scores
    rw [dims_hw]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
